-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S4096x1024 : Shape := ⟨2, ![4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8x2048x1024 .f32) (main_arg1 : FVec F S8x2048x1024 .f32) (main_arg2 : FVec F S4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S8x2048x1024 : Shape := ⟨3, ![8, 2048, 1024]⟩
abbrev S4096x1024 : Shape := ⟨2, ![4096, 1024]⟩
abbrev S8x2048x2048 : Shape := ⟨3, ![8, 2048, 2048]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024x256 : Shape := ⟨3, ![1, 1024, 256]⟩
abbrev S1024x256 : Shape := ⟨2, ![1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4096x1024, .f32⟩
  | .hbm, ⟨3, _⟩ => ⟨S8x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x1024x256, .f32⟩
  | .local _ .vmem, ⟨9, _⟩ => ⟨S1x1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x2048x1024.size a
  hwx0_2 : ∀ i : grid0.Coords, EltTy.bits .f32 = 32 ∨ (Rect.block (s := S8x2048x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x2048x2048.size a
  hwx0_4 : ∀ i : grid0.Coords, EltTy.bits .f32 = 32 ∨ (Rect.block (s := S8x2048x2048) S1x1024x256.size (cc0_transform_4 i) (hinb0_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S4096x1024 : Shape := ⟨2, ![4096, 1024]⟩
abbrev S2048x1024 : Shape := ⟨2, ![2048, 1024]⟩
abbrev S8x2048x2048 : Shape := ⟨3, ![8, 2048, 2048]⟩
abbrev S1x2048x1024 : Shape := ⟨3, ![1, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4096x1024, .f32⟩
  | .hbm, ⟨3, _⟩ => ⟨S2048x1024, .f32⟩
  | .hbm, ⟨4, _⟩ => ⟨S2048x1024, .f32⟩
  | .hbm, ⟨5, _⟩ => ⟨S8x2048x2048, .f32⟩
  | .hbm, ⟨6, _⟩ => ⟨S1x2048x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S4096x1024_S2048x1024_0_0 : S4096x1024.Slices ![0, 0] S2048x1024
  bcast_S2048x1024_S1x2048x1024_1_2 : S2048x1024.BroadcastsInDim S1x2048x1024 (![1, 2] : Fin 2 → Fin S1x2048x1024.rank)
  bcast_S1x2048x1024_S8x2048x1024_0_1_2 : S1x2048x1024.BroadcastsInDim S8x2048x1024 (![0, 1, 2] : Fin 3 → Fin S8x2048x1024.rank)
  transposes_S8x2048x2048_S8x2048x2048_0_2_1 : S8x2048x2048.Transposes [0, 2, 1] S8x2048x2048
  dot_S8x2048x1024_S2048x1024_S8x2048x2048_2_1_01_0_n_n_wf : DotDims.WF S8x2048x1024 S2048x1024 S8x2048x2048 [2] [1] [0, 1] [0] [] []

variable [Facts₀]

def dot_S8x2048x1024_S2048x1024_S8x2048x2048_2_1_01_0_n_n : DotDims S8x2048x1024 S2048x1024 S8x2048x2048 where
  lhsContracting := [2]
  rhsContracting := [1]
  lhsNonContracting := [0, 1]
  rhsNonContracting := [0]
  lhsBatch := []
  rhsBatch := []
  wf := dot_S8x2048x1024_S2048x1024_S8x2048x2048_2_1_01_0_n_n_wf

class Facts : Prop extends Facts₀ where

variable [Facts]
-- ==== Proof.FrameBitsBody.lean ====
/-
  The body of the one kernel region of `Kernel`, at a generic grid point, and the proof data of its pipeline.

  The region runs over a grid of 8 x 2 x 8 points (b, qi, ki). At a point the body is handed five staging buffers:
  the block q[b, 1024 qi .. 1024 qi + 1023, :], the block e[1024 qi .., :] of the embedding table (rows of the query side),
  the block k[b, 256 ki .. 256 ki + 255, :], the block e[256 ki .., :] of the SAME table (rows of the key side), and the
  output block o[b, 1024 qi .., 256 ki ..]. It loads the four input blocks whole, forms two matrix products into zero
  accumulators and their sum, and stores that sum over the whole output block. The two table windows are two windows on
  ONE array: each holds HALF of that array's share, which is all a window that is only read needs.

  Stated here: what every input buffer holds when the body is called (its block, fetched at that point or carried over
  from the point before), what the output buffer holds after the body (the one whole-block store over the body's value
  `k0_pay1` of the four blocks), the body's triple, and the library's body obligation at every point.
-/
import proofs.«134131_j66151086293479_1_alg».proof.Proof.Gen.Kernel.Launch
import proofs.«134131_j66151086293479_1_alg».proof.Proof.Gen.Kernel.Skeleton
import proofs.«134131_j66151086293479_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and each window's block at a point -/

/-- The core's buffers when the region is entered: as launched (the program is the region alone). -/
abbrev V (c : Dev nD) (b : Ref sig .tc) : Buf (Elt F) ((c : Thread nD τ).loc b) := m ((c : Thread nD τ).loc b)

/-- The program up to its region: nothing comes before it. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

abbrev rq : Rect S1x1024x1024 := Rect.unit (s := S1x1024x1024) ![0, 0, 0] S1x1024x1024.size inb_S1x1024x1024_S1x1024x1024_0_0_0
abbrev req : Rect S1024x1024 := Rect.unit (s := S1024x1024) ![0, 0] S1024x1024.size inb_S1024x1024_S1024x1024_0_0
abbrev rk : Rect S1x256x1024 := Rect.unit (s := S1x256x1024) ![0, 0, 0] S1x256x1024.size inb_S1x256x1024_S1x256x1024_0_0_0
abbrev rek : Rect S256x1024 := Rect.unit (s := S256x1024) ![0, 0] S256x1024.size inb_S256x1024_S256x1024_0_0
abbrev ro : Rect S1x1024x256 := Rect.unit (s := S1x1024x256) ![0, 0, 0] S1x1024x256.size inb_S1x1024x256_S1x1024x256_0_0_0

/-! ## What the body leaves in the output buffer -/

/-- The output buffer after the body, from the four input blocks (the query block `xq`, the table's query-side rows
    `xeq`, the key block `xk`, the table's key-side rows `xek`): its one store, of the whole block. -/
def outBlk (xq : Vec F S1x1024x1024 .f32) (xeq : Vec F S1024x1024 .f32) (xk : Vec F S1x256x1024 .f32) (xek : Vec F S256x1024 .f32) :
    Vec F S1x1024x256 .f32 :=
  View.canon [⟨ro, k0_pay1 (View.ld xq rq) (View.ld xek rek) (View.ld xk rk) (View.ld xek rek) (View.ld xeq req)⟩]

/-- The one store covers the buffer. -/
theorem cover_out (p0 : Vec F S1x1024x256 .f32) (y : S1x1024x256.Idx) :
    ∃ pc ∈ ([⟨ro, p0⟩] : List (View.Piece (Elt F) S1x1024x256 .f32)), y ∈ pc.1.set :=
  View.cover_of_tiled [⟨ro, p0⟩] S1x1024x256.size (by rfl) y

/-! ## The body's triple -/

set_option maxHeartbeats 1000000 in
/-- The body on whole staging memrefs, the four inputs' at contents `xq`, `xeq`, `xk`, `xek` and the output's at
    anything, runs to a continuation that holds the inputs' as they were and the output's at `outBlk` of them. -/
theorem sound_kernel (c : Dev nD) (E : Set ℕ) (i : grid0.Coords)
    (arg3 : Memref sig .tc .vmem S1x1024x1024 .f32) (harg3 : arg3.IsWhole) (arg4 : Memref sig .tc .vmem S1024x1024 .f32) (harg4 : arg4.IsWhole)
    (arg5 : Memref sig .tc .vmem S1x256x1024 .f32) (harg5 : arg5.IsWhole) (arg6 : Memref sig .tc .vmem S256x1024 .f32) (harg6 : arg6.IsWhole)
    (arg7 : Memref sig .tc .vmem S1x1024x256 .f32) (harg7 : arg7.IsWhole)
    (xq : Vec F S1x1024x1024 .f32) (xeq : Vec F S1024x1024 .f32) (xk : Vec F S1x256x1024 .f32) (xek : Vec F S256x1024 .f32) (K : PUnit → sProp 𝕄) :
    iprop(owns (c : Thread nD τ) arg3 fullShare xq ∗ owns (c : Thread nD τ) arg4 fullShare xeq ∗ owns (c : Thread nD τ) arg5 fullShare xk
        ∗ owns (c : Thread nD τ) arg6 fullShare xek ∗ (∃ d, owns (c : Thread nD τ) arg7 fullShare d)
        ∗ (iprop(owns (c : Thread nD τ) arg3 fullShare xq ∗ owns (c : Thread nD τ) arg4 fullShare xeq ∗ owns (c : Thread nD τ) arg5 fullShare xk
            ∗ owns (c : Thread nD τ) arg6 fullShare xek ∗ owns (c : Thread nD τ) arg7 fullShare (outBlk xq xeq xk xek)) -∗ K ⟨⟩))
      ⊢ wp frame (wpE (defs₀ (F := F)) Variants.none c none) E (cc0__kernel i arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the pipeline on core `c`: the arrays as the region finds them; after the body at point `t` each
    input's buffer at its block and the output's at `outBlk` of the four blocks; no invariant beyond the scoped rest and
    the generator register; nothing owed; each array at its full share, but for the embedding table, whose two windows
    hold one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := iprop(emp)
  q w := match w with
    | ⟨1, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

/-- Each input's current staging buffer holds its block at every point: fetched there, or, where the window's block index
    has not moved since the point before, left there by the body, which only reads it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameBitsRun.lean ====
/-
  The run of `Kernel`: every weakly fair execution of the program terminates, faults nowhere, and ends with each array of
  the pipeline at what the write-backs leave there — an input array as launched, the output array its launch contents
  overwritten, point by point, by the block the body left.

  The embedding table is handed to the region through TWO windows (its query-side rows and its key-side rows). The launch
  therefore cannot give each window its array at the full share: the table's buffer, whole at the full share when the
  region is entered, is split in two halves (`hsplit`), one per window. Both windows only read, so a half suffices; the
  query, key and output arrays, each behind one window, go at the full share.
-/
import proofs.«134131_j66151086293479_1_alg».proof.Proof.FrameBitsBody
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, dealt among the windows -/

/-- The windows' arrays at entry, one by one: the query array, the table's left half, the key array, the table's right
    half, the output array. -/
theorem arrays_entry (c : Dev nD) :
    (dats m 0 c).arrays ((dats m 0 c).arrAt · 0)
      = (iprop((((c.tc : Thread nD τ).loc main_arg0) ↦{fullShare} V m c main_arg0)
          ∗ (((c.tc : Thread nD τ).loc main_arg2) ↦{fullShare.left} V m c main_arg2)
          ∗ (((c.tc : Thread nD τ).loc main_arg1) ↦{fullShare} V m c main_arg1)
          ∗ (((c.tc : Thread nD τ).loc main_arg2) ↦{fullShare.right} V m c main_arg2)
          ∗ (((c.tc : Thread nD τ).loc main_v0) ↦{fullShare} V m c main_v0)) : sProp 𝕄) := by
  unfold Dat.arrays
  rw [bigSep_W0, (arr_whole0 0).set_eq_univ, (arr_whole0 1).set_eq_univ, (arr_whole0 2).set_eq_univ,
    (arr_whole0 4).set_eq_univ]
  rfl

/-- The four buffers behind the five windows, each whole at the full share, make the windows' arrays at entry: the
    table's full share is the sum of its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry]
  have e : (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg2) ↦{fullShare} V m c main_arg2)
          ∗ (((c.tc : Thread nD τ).loc main_arg1) ↦{fullShare} V m c main_arg1)
          ∗ (((c.tc : Thread nD τ).loc main_v0) ↦{fullShare} V m c main_v0)) :=
    bigSep_eq_bigSepL_of_eq [main_arg0, main_arg2, main_arg1, main_v0] (by decide) (by decide) _
  rw [e]
  iintro ⟨Hq, He, Hk, Ho⟩
  ihave He2 := (pointsTo_share (PosShare.mem_left_op_right fullShare)).1 $$ He
  icases He2 with ⟨Hel, Her⟩
  isplitl [Hq]; · iexact Hq
  isplitl [Hel]; · iexact Hel
  isplitl [Hk]; · iexact Hk
  isplitl [Her]; · iexact Her
  iexact Ho

/-! ## The launch -/

/-- The launch element: every staging cell's owner at round 0 and a duty token for every transfer the pipeline issues. -/
def u₀ : UR sig nD τ := initOf (Pipeline.cells cfgs cellOf_inj) (Pipeline.launchToks cfgs cellOf_inj)

/-- What the run ends in: every array of the pipeline at what the write-backs leave. -/
def RunPost : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- At the compiled mesh, for any float values, from any memory with zero counters: every weakly fair execution of the
    program terminates, and every final state has each array of the pipeline at what the write-backs leave. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-! ## The frame: the argument arrays end as launched -/

/-- The three argument arrays are inputs of the pipeline (the table of two windows): no write-back touches them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1))⟩) (run_main m ρ)

end Cert.Kernel.Hand

end
-- ==== Proof.FrameIdealBody.lean ====
/-
  The body of the one kernel region of `KernelIdeal`, at a generic grid point, and the proof data of its pipeline.

  The region runs over a grid of 8 x 2 x 8 points (b, qi, ki). At a point the body is handed five staging buffers:
  the block q[b, 1024 qi .. 1024 qi + 1023, :], the block e[1024 qi .., :] of the embedding table (rows of the query side),
  the block k[b, 256 ki .. 256 ki + 255, :], the block e[256 ki .., :] of the SAME table (rows of the key side), and the
  output block o[b, 1024 qi .., 256 ki ..]. It loads the four input blocks whole, forms two matrix products into zero
  accumulators and their sum, and stores that sum over the whole output block. The two table windows are two windows on
  ONE array: each holds HALF of that array's share, which is all a window that is only read needs.

  Stated here: what every input buffer holds when the body is called (its block, fetched at that point or carried over
  from the point before), what the output buffer holds after the body (the one whole-block store over the body's value
  `k0_pay1` of the four blocks), the body's triple, and the library's body obligation at every point.
-/
import proofs.«134131_j66151086293479_1_alg».proof.Proof.Gen.KernelIdeal.Launch
import proofs.«134131_j66151086293479_1_alg».proof.Proof.Gen.KernelIdeal.Skeleton
import proofs.«134131_j66151086293479_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and each window's block at a point -/

/-- The core's buffers when the region is entered: as launched (the program is the region alone). -/
abbrev V (c : Dev nD) (b : Ref sig .tc) : Buf (Elt F) ((c : Thread nD τ).loc b) := m ((c : Thread nD τ).loc b)

/-- The program up to its region: nothing comes before it. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

abbrev rq : Rect S1x1024x1024 := Rect.unit (s := S1x1024x1024) ![0, 0, 0] S1x1024x1024.size inb_S1x1024x1024_S1x1024x1024_0_0_0
abbrev req : Rect S1024x1024 := Rect.unit (s := S1024x1024) ![0, 0] S1024x1024.size inb_S1024x1024_S1024x1024_0_0
abbrev rk : Rect S1x256x1024 := Rect.unit (s := S1x256x1024) ![0, 0, 0] S1x256x1024.size inb_S1x256x1024_S1x256x1024_0_0_0
abbrev rek : Rect S256x1024 := Rect.unit (s := S256x1024) ![0, 0] S256x1024.size inb_S256x1024_S256x1024_0_0
abbrev ro : Rect S1x1024x256 := Rect.unit (s := S1x1024x256) ![0, 0, 0] S1x1024x256.size inb_S1x1024x256_S1x1024x256_0_0_0

/-! ## What the body leaves in the output buffer -/

/-- The output buffer after the body, from the four input blocks (the query block `xq`, the table's query-side rows
    `xeq`, the key block `xk`, the table's key-side rows `xek`): its one store, of the whole block. -/
def outBlk (xq : Vec F S1x1024x1024 .f32) (xeq : Vec F S1024x1024 .f32) (xk : Vec F S1x256x1024 .f32) (xek : Vec F S256x1024 .f32) :
    Vec F S1x1024x256 .f32 :=
  View.canon [⟨ro, k0_pay1 (View.ld xq rq) (View.ld xek rek) (View.ld xk rk) (View.ld xek rek) (View.ld xeq req)⟩]

/-- The one store covers the buffer. -/
theorem cover_out (p0 : Vec F S1x1024x256 .f32) (y : S1x1024x256.Idx) :
    ∃ pc ∈ ([⟨ro, p0⟩] : List (View.Piece (Elt F) S1x1024x256 .f32)), y ∈ pc.1.set :=
  View.cover_of_tiled [⟨ro, p0⟩] S1x1024x256.size (by rfl) y

/-! ## The body's triple -/

set_option maxHeartbeats 1000000 in
/-- The body on whole staging memrefs, the four inputs' at contents `xq`, `xeq`, `xk`, `xek` and the output's at
    anything, runs to a continuation that holds the inputs' as they were and the output's at `outBlk` of them. -/
theorem sound_kernel (c : Dev nD) (E : Set ℕ) (i : grid0.Coords)
    (arg3 : Memref sig .tc .vmem S1x1024x1024 .f32) (harg3 : arg3.IsWhole) (arg4 : Memref sig .tc .vmem S1024x1024 .f32) (harg4 : arg4.IsWhole)
    (arg5 : Memref sig .tc .vmem S1x256x1024 .f32) (harg5 : arg5.IsWhole) (arg6 : Memref sig .tc .vmem S256x1024 .f32) (harg6 : arg6.IsWhole)
    (arg7 : Memref sig .tc .vmem S1x1024x256 .f32) (harg7 : arg7.IsWhole)
    (xq : Vec F S1x1024x1024 .f32) (xeq : Vec F S1024x1024 .f32) (xk : Vec F S1x256x1024 .f32) (xek : Vec F S256x1024 .f32) (K : PUnit → sProp 𝕄) :
    iprop(owns (c : Thread nD τ) arg3 fullShare xq ∗ owns (c : Thread nD τ) arg4 fullShare xeq ∗ owns (c : Thread nD τ) arg5 fullShare xk
        ∗ owns (c : Thread nD τ) arg6 fullShare xek ∗ (∃ d, owns (c : Thread nD τ) arg7 fullShare d)
        ∗ (iprop(owns (c : Thread nD τ) arg3 fullShare xq ∗ owns (c : Thread nD τ) arg4 fullShare xeq ∗ owns (c : Thread nD τ) arg5 fullShare xk
            ∗ owns (c : Thread nD τ) arg6 fullShare xek ∗ owns (c : Thread nD τ) arg7 fullShare (outBlk xq xeq xk xek)) -∗ K ⟨⟩))
      ⊢ wp frame (wpE (defs₀ (F := F)) Variants.none c none) E (cc0__kernel i arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the pipeline on core `c`: the arrays as the region finds them; after the body at point `t` each
    input's buffer at its block and the output's at `outBlk` of the four blocks; no invariant beyond the scoped rest and
    the generator register; nothing owed; each array at its full share, but for the embedding table, whose two windows
    hold one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := iprop(emp)
  q w := match w with
    | ⟨1, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

/-- Each input's current staging buffer holds its block at every point: fetched there, or, where the window's block index
    has not moved since the point before, left there by the body, which only reads it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameIdealRun.lean ====
/-
  The run of `KernelIdeal`: every weakly fair execution of the program terminates, faults nowhere, and ends with each array of
  the pipeline at what the write-backs leave there — an input array as launched, the output array its launch contents
  overwritten, point by point, by the block the body left.

  The embedding table is handed to the region through TWO windows (its query-side rows and its key-side rows). The launch
  therefore cannot give each window its array at the full share: the table's buffer, whole at the full share when the
  region is entered, is split in two halves (`hsplit`), one per window. Both windows only read, so a half suffices; the
  query, key and output arrays, each behind one window, go at the full share.
-/
import proofs.«134131_j66151086293479_1_alg».proof.Proof.FrameIdealBody
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, dealt among the windows -/

/-- The windows' arrays at entry, one by one: the query array, the table's left half, the key array, the table's right
    half, the output array. -/
theorem arrays_entry (c : Dev nD) :
    (dats m 0 c).arrays ((dats m 0 c).arrAt · 0)
      = (iprop((((c.tc : Thread nD τ).loc main_arg0) ↦{fullShare} V m c main_arg0)
          ∗ (((c.tc : Thread nD τ).loc main_arg2) ↦{fullShare.left} V m c main_arg2)
          ∗ (((c.tc : Thread nD τ).loc main_arg1) ↦{fullShare} V m c main_arg1)
          ∗ (((c.tc : Thread nD τ).loc main_arg2) ↦{fullShare.right} V m c main_arg2)
          ∗ (((c.tc : Thread nD τ).loc main_v0) ↦{fullShare} V m c main_v0)) : sProp 𝕄) := by
  unfold Dat.arrays
  rw [bigSep_W0, (arr_whole0 0).set_eq_univ, (arr_whole0 1).set_eq_univ, (arr_whole0 2).set_eq_univ,
    (arr_whole0 4).set_eq_univ]
  rfl

/-- The four buffers behind the five windows, each whole at the full share, make the windows' arrays at entry: the
    table's full share is the sum of its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry]
  have e : (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg2) ↦{fullShare} V m c main_arg2)
          ∗ (((c.tc : Thread nD τ).loc main_arg1) ↦{fullShare} V m c main_arg1)
          ∗ (((c.tc : Thread nD τ).loc main_v0) ↦{fullShare} V m c main_v0)) :=
    bigSep_eq_bigSepL_of_eq [main_arg0, main_arg2, main_arg1, main_v0] (by decide) (by decide) _
  rw [e]
  iintro ⟨Hq, He, Hk, Ho⟩
  ihave He2 := (pointsTo_share (PosShare.mem_left_op_right fullShare)).1 $$ He
  icases He2 with ⟨Hel, Her⟩
  isplitl [Hq]; · iexact Hq
  isplitl [Hel]; · iexact Hel
  isplitl [Hk]; · iexact Hk
  isplitl [Her]; · iexact Her
  iexact Ho

/-! ## The launch -/

/-- The launch element: every staging cell's owner at round 0 and a duty token for every transfer the pipeline issues. -/
def u₀ : UR sig nD τ := initOf (Pipeline.cells cfgs cellOf_inj) (Pipeline.launchToks cfgs cellOf_inj)

/-- What the run ends in: every array of the pipeline at what the write-backs leave. -/
def RunPost : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- At the compiled mesh, for any float values, from any memory with zero counters: every weakly fair execution of the
    program terminates, and every final state has each array of the pipeline at what the write-backs leave. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-! ## The frame: the argument arrays end as launched -/

/-- The three argument arrays are inputs of the pipeline (the table of two windows): no write-back touches them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1))⟩) (run_main m ρ)

end Cert.KernelIdeal.Hand

end
-- ==== Proof.PayloadAt.lean ====
/- The kernel body's arithmetic read at one output coordinate, at the ideal values.

   With blocks xq [1,1024,1024], xek [256,1024], xk [1,256,1024], xek' [256,1024] and xeq [1024,1024], the body's one
   stored value is

     cast[1,1024,256]( (cast xq) · (xek)ᵀ  +  xeq · (cast xk + xek')ᵀ ),

   each product a contraction over the shared axis of extent 1024 into the zero accumulator, with the operands first
   narrowed to bf16. At the ideal values a float is an extended real, narrowing is the identity, and a product into the
   zero accumulator is the plain sum over the contracted axis. So at row p and column s the value is

     ∑_d xq[0,p,d] · xek[s,d]  +  ∑_d xeq[p,d] · (xk[0,s,d] + xek'[s,d]).

   The proof reads each layer at explicit coordinates: the outer cast drops the unit axis, the sum of the two products
   is pointwise, each product is re-indexed from its one-axis contraction index to d : Fin 1024, and under the sum the
   transposes swap (d, s) to (s, d) and the inner casts put the unit axis back. -/
import proofs.«134131_j66151086293479_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The product's operand indices, axis by axis

The product contracts the left operand's axis 1 with the right operand's axis 0; the result's axis 0 is the left
operand's axis 0 and its axis 1 the right operand's axis 1. -/

/-- The left operand's row is the result's row. -/
theorem lhs_mm_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl

/-- The left operand's column is the contraction position. -/
theorem lhs_mm_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q

/-- The right operand's row is the contraction position. -/
theorem rhs_mm_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q

/-- The right operand's column is the result's column. -/
theorem rhs_mm_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-! ## The product into the zero accumulator, at a coordinate -/

/-- A [1024,1024] by [1024,256] product into the zero accumulator reads, at (p, s), the sum over d of A[p,d] · B[d,s]. -/
theorem mm_zero_apply (A : FVec Ideal S1024x1024 .bf16) (B : FVec Ideal S1024x256 .bf16) (p : Fin 1024) (s : Fin 256) :
    matmul dot_S1024x1024_S1024x256_S1024x256_1_0_0_1_n_n none A B (constant (F := Ideal) S1024x256 .f32 0x00000000#32) (ix2 p s)
      = ∑ d : Fin 1024, A (ix2 p d) * B (ix2 d s) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p s) ((ValueIdx.contrEquiv1 dot_S1024x1024_S1024x256_S1024x256_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x256_S1024x256_1_0_0_1_n_n.rhsIdx (ix2 p s) ((ValueIdx.contrEquiv1 dot_S1024x1024_S1024x256_S1024x256_1_0_0_1_n_n 1024 rfl rfl).symm k) = ix2 k s := funext fun a => Fin.ext (by
    match a with
    | ⟨0, _⟩ => exact (rhs_mm_0 _ _).trans hk
    | ⟨1, _⟩ => exact rhs_mm_1 _ _)
  rw [el, er]

/-! ## The payload at a coordinate -/

theorem pay_apply (xq : Vec Ideal S1x1024x1024 .f32) (xek : Vec Ideal S256x1024 .f32) (xk : Vec Ideal S1x256x1024 .f32)
    (xek' : Vec Ideal S256x1024 .f32) (xeq : Vec Ideal S1024x1024 .f32) (p : Fin 1024) (s : Fin 256) :
    k0_pay1 (F := Ideal) xq xek xk xek' xeq (ix3 (0 : Fin 1) p s)
      = (∑ d : Fin 1024, xq (ix3 (0 : Fin 1) p d) * xek (ix2 s d))
        + ∑ d : Fin 1024, xeq (ix2 p d) * (xk (ix3 (0 : Fin 1) s d) + xek' (ix2 s d)) := by
  unfold k0_pay1
  rw [shapeCast_ab_1ab_apply, addf_apply, mm_zero_apply, mm_zero_apply]
  congr 1
  · refine Finset.sum_congr rfl fun d _ => ?_
    rw [truncf_apply, transpose_ix2_apply, truncf_apply, shapeCast_1ab_ab_apply]
  · refine Finset.sum_congr rfl fun d _ => ?_
    rw [truncf_apply, transpose_ix2_apply, truncf_apply, addf_apply, shapeCast_1ab_ab_apply]

end Cert.KernelIdeal.Hand

end
-- ==== Proof.Spec.lean ====
/-
  The value both programs compute, as ONE function of the three argument arrays.

  With q, k of shape [8, 2048, 1024] and the embedding table e of shape [4096, 1024], of which only the first 2048 rows
  are used (as the rows of the query side and of the key side alike), the logit at (b, r, s) is

      sum_d q[b, r, d] * e[s, d]  +  sum_d e[r, d] * (k[b, s, d] + e[s, d]).

  The sum k + e is formed BEFORE the product on both sides, so the two programs agree term by term up to the order of
  the two factors of the second product: commutativity of the product of extended reals is the one law used, and it
  holds at the infinities too, so no finiteness of the inputs is needed.
-/
import Idealize.ShloMosaic.PureOps.Ideal
import Idealize.ShloMosaic.Lib.ValueIdx

noncomputable section

namespace Cert.Logits

open Idealize.ShloMosaic Idealize.ShloMosaic.ValueIdx

/-- The shapes of q and k, of the table, and of the logits. -/
abbrev SQ : Shape := ⟨3, ![8, 2048, 1024]⟩
abbrev SE : Shape := ⟨2, ![4096, 1024]⟩
abbrev SO : Shape := ⟨3, ![8, 2048, 2048]⟩

/-- Row `r` of the table's first 2048 rows, as a row of the whole table. -/
abbrev erow (r : Fin 2048) : Fin 4096 := ⟨r.val, Nat.lt_trans r.isLt (by decide)⟩

/-- The logit at batch `b`, query row `r`, key row `s`. -/
def logit (Q K : SQ.Idx → EReal) (E : SE.Idx → EReal) (b : Fin 8) (r s : Fin 2048) : EReal :=
  (∑ d : Fin 1024, Q (ix3 b r d) * E (ix2 (erow s) d))
    + ∑ d : Fin 1024, E (ix2 (erow r) d) * (K (ix3 b s d) + E (ix2 (erow s) d))

/-- All logits, as an array over [8, 2048, 2048]. -/
def G (Q K : SQ.Idx → EReal) (E : SE.Idx → EReal) : SO.Idx → EReal := fun i =>
  logit Q K E ⟨(i 0).val, (i 0).isLt⟩ ⟨(i 1).val, (i 1).isLt⟩ ⟨(i 2).val, (i 2).isLt⟩

theorem G_apply (Q K : SQ.Idx → EReal) (E : SE.Idx → EReal) (b : Fin 8) (r s : Fin 2048) :
    G Q K E (ix3 b r s) = logit Q K E b r s := rfl

end Cert.Logits

end
-- ==== Proof.KernelValue.lean ====
/-
  What the idealized kernel's output array holds after the run: the logits `Cert.Logits.G` of the argument arrays.

  Point t = (b, qi, ki) of the grid writes back the output block of rows 1024 qi .. 1024 qi + 1023 and columns
  256 ki .. 256 ki + 255 of batch b. The body's value there, at row p and column s of the block, is

      sum_d qblk[0, p, d] * ekblk[s, d]  +  sum_d eqblk[p, d] * (kblk[0, s, d] + ekblk[s, d]),

  and the four input blocks are the rows 1024 qi + p of q[b] and of the table, and the rows 256 ki + s of k[b] and of the
  table: so the entry is the logit at (b, 1024 qi + p, 256 ki + s), which is the array index the block places it at.
  The 128 blocks tile the output array, so the array ends holding `G` everywhere.
-/
import proofs.«134131_j66151086293479_1_alg».proof.Proof.FrameIdealRun
import proofs.«134131_j66151086293479_1_alg».proof.Proof.PayloadAt
import proofs.«134131_j66151086293479_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Logits
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The argument arrays, at their literal types -/

abbrev qArr (c : Dev nD) : SQ.Idx → EReal := V m c main_arg0
abbrev kArr (c : Dev nD) : SQ.Idx → EReal := V m c main_arg1
abbrev eArr (c : Dev nD) : SE.Idx → EReal := V m c main_arg2

/-! ## The index maps over the grid -/

/-- Each input window's block index in terms of the output window's (b, qi, ki): q at (b, qi, 0), the table's query-side
    rows at (qi, 0), k at (b, ki, 0), the table's key-side rows at (ki, 0); and the ranges of b, qi, ki. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = win0_4.index t (1 : Fin 3) ∧ win0_1.index t (1 : Fin 2) = 0
    ∧ win0_2.index t (0 : Fin 3) = win0_4.index t (0 : Fin 3) ∧ win0_2.index t (1 : Fin 3) = win0_4.index t (2 : Fin 3)
    ∧ win0_2.index t (2 : Fin 3) = 0
    ∧ win0_3.index t (0 : Fin 2) = win0_4.index t (2 : Fin 3) ∧ win0_3.index t (1 : Fin 2) = 0
    ∧ win0_4.index t (0 : Fin 3) ≤ 7 ∧ win0_4.index t (1 : Fin 3) ≤ 1 ∧ win0_4.index t (2 : Fin 3) ≤ 7 :=
  (by decide +kernel : ∀ t : Fin grid0.N, _)

/-- Every block of the output array is some point's. -/
theorem idx_onto : ∀ (q0 : Fin 8) (q1 : Fin 2) (q2 : Fin 8), ∃ t : Fin cfg0.N, win0_4.index t = ![q0.val, q1.val, q2.val] :=
  (by decide +kernel : ∀ (q0 : Fin 8) (q1 : Fin 2) (q2 : Fin 8), ∃ t : Fin grid0.N, win0_4.index t = ![q0.val, q1.val, q2.val])

/-! ## The input blocks, read at an index -/

/-- The q block at point `t`: row `p` of the block is row `r` of q[b]. -/
theorem q_blk (c : Dev nD) (t : Fin cfg0.N) (p d : Fin 1024) (b : Fin 8) (r : Fin 2048)
    (hb : b.val = win0_4.index t (0 : Fin 3)) (hr : r.val = win0_4.index t (1 : Fin 3) * 1024 + p.val) :
    iblk m c 0 t (ix3 (0 : Fin 1) p d) = qArr m c (ix3 b r d) := by
  obtain ⟨e0, e1, e2, -⟩ := idx_facts t
  show V m c main_arg0 (((cfg0.win 0).blk t).view.emb (ix3 (0 : Fin 1) p d)) = V m c main_arg0 (ix3 b r d)
  congr 1
  funext a; apply Fin.ext
  match a with
  | ⟨0, _⟩ => show win0_0.index t (0 : Fin 3) * 1 + 1 * 0 = b.val; omega
  | ⟨1, _⟩ => show win0_0.index t (1 : Fin 3) * 1024 + 1 * p.val = r.val; omega
  | ⟨2, _⟩ => show win0_0.index t (2 : Fin 3) * 1024 + 1 * d.val = d.val; omega

/-- The table's query-side block at point `t`: row `p` of the block is row `r` of the table. -/
theorem eq_blk (c : Dev nD) (t : Fin cfg0.N) (p d : Fin 1024) (r : Fin 2048)
    (hr : r.val = win0_4.index t (1 : Fin 3) * 1024 + p.val) :
    iblk m c 1 t (ix2 p d) = eArr m c (ix2 (erow r) d) := by
  obtain ⟨-, -, -, e3, e4, -⟩ := idx_facts t
  show V m c main_arg2 (((cfg0.win 1).blk t).view.emb (ix2 p d)) = V m c main_arg2 (ix2 (erow r) d)
  congr 1
  funext a; apply Fin.ext
  match a with
  | ⟨0, _⟩ => show win0_1.index t (0 : Fin 2) * 1024 + 1 * p.val = r.val; omega
  | ⟨1, _⟩ => show win0_1.index t (1 : Fin 2) * 1024 + 1 * d.val = d.val; omega

/-- The k block at point `t`: row `s` of the block is row `ks` of k[b]. -/
theorem k_blk (c : Dev nD) (t : Fin cfg0.N) (s : Fin 256) (d : Fin 1024) (b : Fin 8) (ks : Fin 2048)
    (hb : b.val = win0_4.index t (0 : Fin 3)) (hs : ks.val = win0_4.index t (2 : Fin 3) * 256 + s.val) :
    iblk m c 2 t (ix3 (0 : Fin 1) s d) = kArr m c (ix3 b ks d) := by
  obtain ⟨-, -, -, -, -, e5, e6, e7, -⟩ := idx_facts t
  show V m c main_arg1 (((cfg0.win 2).blk t).view.emb (ix3 (0 : Fin 1) s d)) = V m c main_arg1 (ix3 b ks d)
  congr 1
  funext a; apply Fin.ext
  match a with
  | ⟨0, _⟩ => show win0_2.index t (0 : Fin 3) * 1 + 1 * 0 = b.val; omega
  | ⟨1, _⟩ => show win0_2.index t (1 : Fin 3) * 256 + 1 * s.val = ks.val; omega
  | ⟨2, _⟩ => show win0_2.index t (2 : Fin 3) * 1024 + 1 * d.val = d.val; omega

/-- The table's key-side block at point `t`: row `s` of the block is row `ks` of the table. -/
theorem ek_blk (c : Dev nD) (t : Fin cfg0.N) (s : Fin 256) (d : Fin 1024) (ks : Fin 2048)
    (hs : ks.val = win0_4.index t (2 : Fin 3) * 256 + s.val) :
    iblk m c 3 t (ix2 s d) = eArr m c (ix2 (erow ks) d) := by
  obtain ⟨-, -, -, -, -, -, -, -, e8, e9, -⟩ := idx_facts t
  show V m c main_arg2 (((cfg0.win 3).blk t).view.emb (ix2 s d)) = V m c main_arg2 (ix2 (erow ks) d)
  congr 1
  funext a; apply Fin.ext
  match a with
  | ⟨0, _⟩ => show win0_3.index t (0 : Fin 2) * 256 + 1 * s.val = ks.val; omega
  | ⟨1, _⟩ => show win0_3.index t (1 : Fin 2) * 1024 + 1 * d.val = d.val; omega

/-! ## What a point writes back -/

/-- WHAT POINT `t` WRITES BACK is block `t` of the logits of the argument arrays. -/
theorem flushed_eq (c : Dev nD) (t : Fin cfg0.N) :
    (dats m 0 c).flushed 4 t = ((cfg0.win 4).blk t).view.read (Elt Ideal) (G (qArr m c) (kArr m c) (eArr m c)) := by
  show (cfg0.win 4).cut (grid0.coords t) ((dats m 0 c).after 4 t) = _
  rw [after_4]
  unfold outBlk
  rw [View.canon_unit_zero hz3]
  simp only [View.ld_unit_zero (S := S1x1024x1024) hz3, View.ld_unit_zero (S := S256x1024) hz2,
    View.ld_unit_zero (S := S1x256x1024) hz3, View.ld_unit_zero (S := S1024x1024) hz2]
  obtain ⟨-, -, -, -, -, -, -, -, -, -, r0, r1, r2⟩ := idx_facts t
  funext j
  obtain ⟨p, s, rfl⟩ : ∃ (p : Fin 1024) (s : Fin 256), j = ix3 (0 : Fin 1) p s :=
    ⟨j 1, j 2, by rw [show (0 : Fin 1) = j 0 from Subsingleton.elim _ _]; exact eq_ix3 j⟩
  -- the array coordinates of entry (p, s) of the block
  have hb : win0_4.index t (0 : Fin 3) < 8 := by omega
  have hr : win0_4.index t (1 : Fin 3) * 1024 + p.val < 2048 := by have := p.isLt; omega
  have hs : win0_4.index t (2 : Fin 3) * 256 + s.val < 2048 := by have := s.isLt; omega
  have hemb : ((cfg0.win 4).blk t).view.emb (ix3 (0 : Fin 1) p s)
      = ix3 (⟨_, hb⟩ : Fin 8) (⟨_, hr⟩ : Fin 2048) (⟨_, hs⟩ : Fin 2048) := by
    funext a; apply Fin.ext
    match a with
    | ⟨0, _⟩ => show win0_4.index t (0 : Fin 3) * 1 + 1 * 0 = win0_4.index t (0 : Fin 3); omega
    | ⟨1, _⟩ => show win0_4.index t (1 : Fin 3) * 1024 + 1 * p.val = win0_4.index t (1 : Fin 3) * 1024 + p.val; omega
    | ⟨2, _⟩ => show win0_4.index t (2 : Fin 3) * 256 + 1 * s.val = win0_4.index t (2 : Fin 3) * 256 + s.val; omega
  rw [View.read_apply, hemb]
  refine (pay_apply _ _ _ _ _ p s).trans ?_
  show _ = logit (qArr m c) (kArr m c) (eArr m c) ⟨_, hb⟩ ⟨_, hr⟩ ⟨_, hs⟩
  unfold logit
  congr 1
  · refine Finset.sum_congr rfl fun d _ => ?_
    rw [q_blk m c t p d ⟨_, hb⟩ ⟨_, hr⟩ rfl rfl, ek_blk m c t s d ⟨_, hs⟩ rfl]
  · refine Finset.sum_congr rfl fun d _ => ?_
    rw [eq_blk m c t p d ⟨_, hr⟩ rfl, k_blk m c t s d ⟨_, hb⟩ ⟨_, hs⟩ rfl rfl, ek_blk m c t s d ⟨_, hs⟩ rfl]

/-! ## The blocks tile the array -/

/-- An index of the output array is in point `t`'s block iff each coordinate is in the block's range on its axis. -/
theorem mem_blk (t : Fin cfg0.N) (i : S8x2048x2048.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v0).slice (win0_4.rect t)).set ↔ _
  rw [View.set_slice_whole, Rect.mem_set_unit]
  exact Iff.rfl

/-- Every index of the output array is in the block of the point (b, row / 1024, column / 256). -/
theorem cover (i : S8x2048x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩ ⟨(i 2).val / 256, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 256 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- THE OUTPUT ARRAY after the run: the logits of the argument arrays. -/
theorem final_out (c : Dev nD) : (dats m 0 c).arrAt 4 cfg0.N = G (qArr m c) (kArr m c) (eArr m c) :=
  (dats m 0 c).arrAt_eq_of_cover 4 (G (qArr m c) (kArr m c) (eArr m c)) (fun t _ => flushed_eq m c t) cover

/-! ## The run, read -/

/-- The run re-posted: the output array at the logits of the arguments, the arguments unchanged. -/
theorem run_value : θ_run defs (onTc (τ := τ) (main (F := Ideal))) ⟨m, fun _ => 0, ρ⟩ fun r => ∀ c : Dev nD,
      r.2.mem ((c.tc : Thread nD τ).loc main_v0)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c 4).trans (final_out m c),
     (h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1))⟩) (run_main m ρ)

end Cert.KernelIdeal.Hand

end
-- ==== Proof.RefValue.lean ====
/-
  The reference's result is the logits `Cert.Logits.G` of the argument arrays.

  The reference slices the first 2048 rows off the table (twice: once as the key-side rows, once as the query-side rows),
  contracts q with the key-side rows over the feature axis, adds the key-side rows (broadcast over the batch) to k,
  contracts THAT sum with the query-side rows — which gives the second term with its axes in the order (b, key row,
  query row) — transposes the last two axes, and adds. Read at an index (b, r, s), stage by stage:

      sum_d q[b, r, d] * e[s, d]  +  sum_d (k[b, s, d] + e[s, d]) * e[r, d],

  which is the logit but for the order of the two factors in the second sum.
-/
import proofs.«134131_j66151086293479_1_alg».proof.Proof.Gen.ReferenceIdeal.Read
import proofs.«134131_j66151086293479_1_alg».proof.Proof.Spec

noncomputable section

namespace Cert.ReferenceIdeal.RefValue

open Cert.ReferenceIdeal Cert.ReferenceIdeal.Read Idealize.ShloMosaic Idealize.ShloMosaic.ValueIdx Cert.Logits

/-- The coordinates of an index of the result, as numbers of their literal ranges. -/
abbrev cb (i : S8x2048x2048.Idx) : Fin 8 := ⟨(i 0).val, (i 0).isLt⟩
abbrev cr (i : S8x2048x2048.Idx) : Fin 2048 := ⟨(i 1).val, (i 1).isLt⟩
abbrev cs (i : S8x2048x2048.Idx) : Fin 2048 := ⟨(i 2).val, (i 2).isLt⟩

/-! ## The composed index maps of the stages, as coordinates -/

/-- The first product reads q at (b, r, d) -/
theorem q_at (i : S8x2048x2048.Idx) (d : Fin 1024) : lidx_main_v2 i d = ix3 (cb i) (cr i) d :=
  funext fun a => match a with | ⟨0, _⟩ => rfl | ⟨1, _⟩ => rfl | ⟨2, _⟩ => rfl

/-- and the table at (s, d). -/
theorem ek_at (i : S8x2048x2048.Idx) (d : Fin 1024) : idx_main_v1 (ridx_main_v2 i d) = ix2 (erow (cs i)) d :=
  funext fun a => match a with | ⟨0, _⟩ => rfl | ⟨1, _⟩ => rfl

/-- The second product, read through the transposition, reads k at (b, s, d), -/
theorem k_at (i : S8x2048x2048.Idx) (d : Fin 1024) : lidx_main_v6 (idx_main_v7 i) d = ix3 (cb i) (cs i) d :=
  funext fun a => match a with | ⟨0, _⟩ => rfl | ⟨1, _⟩ => rfl | ⟨2, _⟩ => rfl

/-- the table's key-side row, through the two broadcasts, at (s, d), -/
theorem eks_at (i : S8x2048x2048.Idx) (d : Fin 1024) :
    idx_main_v1 (idx_main_v3 (idx_main_v4 (lidx_main_v6 (idx_main_v7 i) d))) = ix2 (erow (cs i)) d :=
  funext fun a => match a with | ⟨0, _⟩ => rfl | ⟨1, _⟩ => rfl

/-- and the table's query-side row at (r, d). -/
theorem eq_at (i : S8x2048x2048.Idx) (d : Fin 1024) : idx_main_v0 (ridx_main_v6 (idx_main_v7 i) d) = ix2 (erow (cr i)) d :=
  funext fun a => match a with | ⟨0, _⟩ => rfl | ⟨1, _⟩ => rfl

/-! ## The reference is the logits -/

/-- The reference's last stage, as a function of the three argument arrays, is `G`: stage by stage down to the arguments,
    then the two factors of the second product exchanged. -/
theorem ref_eq (x0 x1 : (⟨S8x2048x1024, .f32⟩ : BufTy).Contents (Elt Ideal)) (x2 : (⟨S4096x1024, .f32⟩ : BufTy).Contents (Elt Ideal)) :
    val_main_v8 (F := Ideal) x0 x1 x2 = G x0 x1 x2 := by
  funext i
  rw [val_main_v8_apply, val_main_v2_apply, val_main_v7_apply, val_main_v6_apply]
  simp only [val_main_v5_apply, val_main_v4_apply, val_main_v3_apply, val_main_v1_apply, val_main_v0_apply,
    q_at, ek_at, k_at, eks_at, eq_at]
  show (∑ d : Fin 1024, x0 (ix3 (cb i) (cr i) d) * x2 (ix2 (erow (cs i)) d))
      + (∑ d : Fin 1024, (x1 (ix3 (cb i) (cs i) d) + x2 (ix2 (erow (cs i)) d)) * x2 (ix2 (erow (cr i)) d))
    = logit x0 x1 x2 (cb i) (cr i) (cs i)
  unfold logit
  congr 1
  exact Finset.sum_congr rfl fun d _ => mul_comm _ _

end Cert.ReferenceIdeal.RefValue

end
-- ==== Proof.lean ====
/-
  The certificate: the positional attention logits

      logits[b, r, s] = sum_d q[b, r, d] * e[s, d]  +  sum_d e[r, d] * (k[b, s, d] + e[s, d])

  computed by one kernel region over a grid of 8 x 2 x 8 blocks (two matrix products per block, in bf16, which at the
  ideal instance are exact) against the reference's two contractions of whole arrays.

  The three frames: the kernel's two (word-level and idealized, one text generic in the float instance) are runs of the
  region's pipeline whose two windows on the embedding table each hold half of the table's share; the reference's is
  its straight-line run with the result dropped. The ideal pass rewrote nothing, so there is nothing to preserve.
  The value claim: the kernel's output array ends at the function `Cert.Logits.G` of the argument arrays (every block
  of the output is the logits' block, and the blocks tile the array), and the reference's result is the same function,
  the two factors of its second product exchanged.
-/
import proofs.«134131_j66151086293479_1_alg».proof.Defs
import proofs.«134131_j66151086293479_1_alg».proof.Proof.Gen.Kernel
import proofs.«134131_j66151086293479_1_alg».proof.Proof.Gen.KernelIdeal
import proofs.«134131_j66151086293479_1_alg».proof.Proof.Gen.ReferenceIdeal
import proofs.«134131_j66151086293479_1_alg».proof.Proof.Gen.Pre_finite_inputs
import proofs.«134131_j66151086293479_1_alg».proof.Proof.Gen.ReferenceIdeal.Run
import proofs.«134131_j66151086293479_1_alg».proof.Proof.Gen.ReferenceIdeal.Read
import proofs.«134131_j66151086293479_1_alg».proof.Proof.FrameBitsRun
import proofs.«134131_j66151086293479_1_alg».proof.Proof.KernelValue
import proofs.«134131_j66151086293479_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves q, k and the table as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the program's own text read at the ideal instance: no rewrite to account for. -/
theorem preserves : Cert.preserves_Kernel_KernelIdeal := trivial

/-- Both programs end with the logits of the argument arrays: the kernel block by block, the reference by its two
    contractions; arguments that agree give equal results. -/
theorem algebraic : Cert.algebraic_KernelIdeal_ReferenceIdeal := by
  intro m ρ m' ρ' _ hagree
  refine ⟨fun c => Cert.Logits.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
